-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v62_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v62_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x384 : Shape := ⟨2, ![64, 384]⟩
abbrev S384 : Shape := ⟨1, ![384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x384 : S_.BroadcastsInDim S64x384 (![] : Fin 0 → Fin S64x384.rank)
  reducesTo_S64x384_S_d0_1 : S64x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x384 .f32) (main_arg8 : FVec F S384 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x384 .f32 := Host.absf main_arg7
  let main_cst_10 : FVec F S_ .f32 := constant S_ .f32 0x7F800000#32
  let main_v30 : FVec F S64x384 .f32 := broadcastInDim S64x384 ![] bcast_S_S64x384 main_cst_10
  let main_v31 : IVec S64x384 1 := cmpf .olt main_v29 main_v30
  let main_c_11 : IVec S_ 1 := constantI S_ 1 1#1
  let main_v32 : IVec S_ 1 := (fun x v => Host.reduce IntOp.andi x v reducesTo_S64x384_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64x64 .f32) (main_arg5 : FVec F S64x64 .f32) (main_arg6 : FVec F S64 .f32) (main_arg7 : FVec F S64x384 .f32) (main_arg8 : FVec F S384 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x384 : Shape := ⟨2, ![64, 384]⟩
abbrev S384 : Shape := ⟨1, ![384]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S1x384 : Shape := ⟨2, ![1, 384]⟩
abbrev S100000x384 : Shape := ⟨2, ![100000, 384]⟩
abbrev S2000x64 : Shape := ⟨2, ![2000, 64]⟩
abbrev S2000x384 : Shape := ⟨2, ![2000, 384]⟩
abbrev S100000x12x32 : Shape := ⟨3, ![100000, 12, 32]⟩

abbrev nBuf : Space → Nat
  | .hbm => 90
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x384, .f32⟩
  | .hbm, ⟨8, _⟩ => ⟨S384, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S1x384, .f32⟩
  | .hbm, ⟨87, _⟩ => ⟨S100000x64, .f32⟩
  | .hbm, ⟨88, _⟩ => ⟨S100000x384, .f32⟩
  | .hbm, ⟨89, _⟩ => ⟨S100000x12x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S64x384, .f32⟩
  | .local _ .vmem, ⟨15, _⟩ => ⟨S1x384, .f32⟩
  | .local _ .vmem, ⟨16, _⟩ => ⟨S2000x64, .f32⟩
  | .local _ .vmem, ⟨17, _⟩ => ⟨S2000x64, .f32⟩
  | .local _ .vmem, ⟨18, _⟩ => ⟨S2000x384, .f32⟩
  | .local _ .vmem, ⟨19, _⟩ => ⟨S2000x384, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62_0 : Ref sig .tc := ⟨.hbm, 87, rfl⟩
abbrev main_v62_1 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  shapeCasts_S64_S1x64 : S64.ShapeCasts S1x64
  shapeCasts_S384_S1x384 : S384.ShapeCasts S1x384
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x384_S64x384_0_0 : ∀ a, (![0, 0] : Fin 2 → Nat) a + S64x384.size a ≤ S64x384.size a
  h_S64x384 : 0 < S64x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  shapeCasts_S100000x384_S100000x12x32 : S100000x384.ShapeCasts S100000x12x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  dot_S2000x64_S64x384_S2000x384_1_0_0_1_n_n_wf : DotDims.WF S2000x64 S64x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x384.size a ≤ S64x384.size a
  hwx2_3 : ∀ i : grid2.Coords, EltTy.bits .f32 = 32 ∨ (Rect.block (s := S64x384) S64x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x384.size a ≤ S100000x384.size a
  hwx2_6 : ∀ i : grid2.Coords, EltTy.bits .f32 = 32 ∨ (Rect.block (s := S100000x384) S2000x384.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x384_S2000x384_1_0_0_1_n_n : DotDims S2000x64 S64x384 S2000x384 where
  lhsContracting := [1]
  rhsContracting := [0]
  lhsNonContracting := [0]
  rhsNonContracting := [1]
  lhsBatch := []
  rhsBatch := []
  wf := dot_S2000x64_S64x384_S2000x384_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S2000x384.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x384 : Shape := ⟨2, ![64, 384]⟩
abbrev S384 : Shape := ⟨1, ![384]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x384 : Shape := ⟨2, ![100000, 384]⟩
abbrev S1x384 : Shape := ⟨2, ![1, 384]⟩
abbrev S100000x12x32 : Shape := ⟨3, ![100000, 12, 32]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64x64, .f32⟩
  | 5 => ⟨S64x64, .f32⟩
  | 6 => ⟨S64, .f32⟩
  | 7 => ⟨S64x384, .f32⟩
  | 8 => ⟨S384, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x64, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x64, .f32⟩
  | 113 => ⟨S1700000x1, .f32⟩
  | 114 => ⟨S1700000x64, .f32⟩
  | 115 => ⟨S1700000x64, .f32⟩
  | 116 => ⟨S_, .f32⟩
  | 117 => ⟨S100000x64, .f32⟩
  | 118 => ⟨S1700000x1, .i32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S100000x384, .f32⟩
  | 3 => ⟨S1x384, .f32⟩
  | 4 => ⟨S100000x384, .f32⟩
  | 5 => ⟨S100000x384, .f32⟩
  | 6 => ⟨S100000x12x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_cst : Ref sig .tc := ⟨.hbm, 120, rfl⟩
abbrev main_call3_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call4_cst : Ref sig .tc := ⟨.hbm, 127, rfl⟩
abbrev main_call4_v0 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  shapeCasts_S100000x384_S100000x12x32 : S100000x384.ShapeCasts S100000x12x32
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x384_S100000x384_1_0_0_1_n_n_wf : DotDims.WF S100000x64 S64x384 S100000x384 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x384_S100000x384_1_0_0_1_n_n : DotDims S100000x64 S64x384 S100000x384 where
  lhsContracting := [1]
  rhsContracting := [0]
  lhsNonContracting := [0]
  rhsNonContracting := [1]
  lhsBatch := []
  rhsBatch := []
  wf := dot_S100000x64_S64x384_S100000x384_1_0_0_1_n_n_wf

class Facts : Prop extends Facts₀ where

variable [Facts]
-- ==== Proof.HostChain.lean ====
/-
  The graph side of the network, shared by both programs: the edge list with one self loop per node
  appended, the symmetric normalisation of the edge weights, and one round of message passing.

  From the edge index (two rows of node numbers) and the edge weights: `rowOf` / `colOf` are the source and
  the target of every edge followed by 0, 1, …, n − 1 (each node's self loop), `ewOf` the weights followed
  by ones. The degree of a node is the sum of the weights of the edges that end at it, `dinvOf` its
  reciprocal square root where the degree is positive and zero elsewhere, and the normalised weight of an
  edge is dinv (source) · weight · dinv (target). One round of message passing (`aggOf`) gathers the
  feature row of every edge's source, scales it by the edge's normalised weight, and adds it into the row of
  the edge's target. A node number below zero counts from the end, as array indexing does (`wrapIdx`).

  Both programs print exactly these operations, so they are named here once and never opened: the two
  sides are compared on the dense steps between them.
-/
import proofs.«143289_j25632364822536_1_alg».proof.Proof.Gen.KernelIdeal

noncomputable section

namespace Cert.Chain

open Cert.KernelIdeal Cert.KernelIdeal.Facts₀ Idealize.ShloMosaic Idealize.ShloMosaic.TcCoe Idealize.SL.Sem Idealize.ShloMosaic.StableHlo

variable {F : FTy → Type} [FloatOps F]

/-- The source of every edge, then each node once (its self loop). -/
def rowOf (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The target of every edge, then each node once (its self loop). -/
def colOf (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- The weight of every edge, then a one per self loop. -/
def ewOf (w : (⟨S1600000, .f32⟩ : BufTy).Contents (Elt F)) : (⟨S1700000, .f32⟩ : BufTy).Contents (Elt F) :=
  concatenate S1700000 0 [⟨S1600000, w⟩, ⟨S100000, broadcastInDim S100000 ![] bcast_S_S100000 (constant S_ .f32 0x3F800000#32)⟩] concatenates_S1600000_S100000_S1700000_d0

/-- Node numbers as gather indices: a number below zero counts from the end (n is added to it), and the
    vector becomes a column of one-entry index vectors. -/
def wrapIdx (r : (⟨S1700000, .i32⟩ : BufTy).Contents (Elt F)) : (⟨S1700000x1, .i32⟩ : BufTy).Contents (Elt F) :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The degree of every node: the weights of the edges ending at it, summed. -/
def degOf (e : (⟨S2x1600000, .i32⟩ : BufTy).Contents (Elt F)) (w : (⟨S1600000, .f32⟩ : BufTy).Contents (Elt F)) :
    (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (colOf e)) (ewOf w)

/-- The reciprocal square root of the degree where it is positive, zero elsewhere. -/
def dinvOf (e : (⟨S2x1600000, .i32⟩ : BufTy).Contents (Elt F)) (w : (⟨S1600000, .f32⟩ : BufTy).Contents (Elt F)) :
    (⟨S100000, .f32⟩ : BufTy).Contents (Elt F) :=
  select (cmpf .ogt (degOf e w) (broadcastInDim S100000 ![] bcast_S_S100000 (constant S_ .f32 0x00000000#32)))
    (Host.rsqrt (degOf e w))
    (broadcastInDim S100000 ![] bcast_S_S100000 (id (constant S_ .f32 0x00000000#32)))

/-- The normalised weight of every edge: dinv at its source, times its weight, times dinv at its target. -/
def normOf (e : (⟨S2x1600000, .i32⟩ : BufTy).Contents (Elt F)) (w : (⟨S1600000, .f32⟩ : BufTy).Contents (Elt F)) :
    (⟨S1700000, .f32⟩ : BufTy).Contents (Elt F) :=
  mulf (mulf (Host.gather gather_S100000_S1700000x1_S1700000_n_0_n_n_0_1_1 (dinvOf e w) (wrapIdx (rowOf e))) (ewOf w))
    (Host.gather gather_S100000_S1700000x1_S1700000_n_0_n_n_0_1_1 (dinvOf e w) (wrapIdx (colOf e)))

/-- One round of message passing over the node features `h`, given the source, the target and the
    normalised weight of every edge: the source's row, scaled, added into the target's row. -/
def aggWith (h : (⟨S100000x64, .f32⟩ : BufTy).Contents (Elt F)) (row col : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 col)
    (mulf (Host.gather gather_S100000x64_S1700000x1_S1700000x64_1_0_n_n_0_1_164 h (wrapIdx row))
      (broadcastInDim S1700000x64 ![0, 1] bcast_S1700000x1_S1700000x64_0_1
        (broadcastInDim S1700000x1 ![0] bcast_S1700000_S1700000x1_0 nrm)))

/-- One round of message passing over the node features `h` on the graph given by the edge index and the
    edge weights. -/
def aggOf (h : (⟨S100000x64, .f32⟩ : BufTy).Contents (Elt F)) (e : (⟨S2x1600000, .i32⟩ : BufTy).Contents (Elt F))
    (w : (⟨S1600000, .f32⟩ : BufTy).Contents (Elt F)) : (⟨S100000x64, .f32⟩ : BufTy).Contents (Elt F) :=
  aggWith h (rowOf e) (colOf e) (normOf e w)

end Cert.Chain

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«143289_j25632364822536_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.Spec.lean ====
/-
  A two-layer graph convolution followed by a two-layer readout, as functions of whole arrays over the
  extended reals.

  Every dense step of the network acts on the rows of a node-feature matrix one row at a time: a product
  with a weight matrix (entry (p, q) is the sum over k of x (p, k) · w (k, q)), the positive part of an
  entry, and a one-row bias added to every row. So a step applied to a block of consecutive rows gives
  the same rows as the step applied to the whole matrix; nothing is regrouped, and no entry needs to be
  finite. The functions below name these steps for matrices of any extent.
-/
import proofs.«143289_j25632364822536_1_alg».proof.Proof.LibRowBlockProduct

open scoped BigOperators

noncomputable section

namespace Cert.Spec

open Idealize.ShloMosaic Idealize.ShloMosaic.ValueIdx Idealize.ShloMosaic.RowBlockProduct

/-- An `a × b` matrix of extended reals. -/
abbrev Mat (a b : ℕ) : Type := (⟨2, ![a, b]⟩ : Shape).Idx → EReal

/-- The float zero as an extended real (its word is never evaluated: both programs carry the same word). -/
abbrev zero32 : EReal := Ideal.ofBits .f32 0x00000000#32

/-- The positive part, entry by entry: the larger of the entry and zero. -/
def relu {a b : ℕ} (x : Mat a b) : Mat a b := fun i => max (x i) zero32

/-- A one-row matrix added to every row of `x`: entry (p, q) gets `r (0, q)`. -/
def addRow {a b : ℕ} (x : Mat a b) (r : Mat 1 b) : Mat a b :=
  fun i => x i + r (ix2 (0 : Fin 1) ⟨(i 1).val, (i 1).isLt⟩)

/-- A layer's input transform when the layer below ends in a positive part: the positive part of every
    entry, then the product with the weights. -/
def reluLin {a k n : ℕ} (x : Mat a k) (w : Mat k n) : Mat a n := prod (relu x) w

/-- The readout of the node features `g`: the positive part `h`, a dense layer with bias and positive
    part, and a second dense layer with bias. -/
def readout {a k n : ℕ} (g : Mat a k) (a1 : Mat k k) (b1 : Mat 1 k) (a2 : Mat k n) (b2 : Mat 1 n) : Mat a n :=
  addRow (prod (relu (addRow (prod (relu g) a1) b1)) a2) b2

theorem relu_apply {a b : ℕ} (x : Mat a b) (p : Fin a) (q : Fin b) : relu x (ix2 p q) = max (x (ix2 p q)) zero32 := rfl

theorem addRow_apply {a b : ℕ} (x : Mat a b) (r : Mat 1 b) (p : Fin a) (q : Fin b) :
    addRow x r (ix2 p q) = x (ix2 p q) + r (ix2 (0 : Fin 1) q) := rfl

end Cert.Spec

end
-- ==== Proof.Net.lean ====
/-
  The network's two results as functions of its nine inputs, over the extended reals.

  With `agg` one round of message passing on the graph of the edge index and the edge weights (a gather
  of source rows, a scaling by the normalised edge weight, a sum into target rows):
    feat1 = agg (x · W1),   feat2 = agg (relu feat1 · W2),
    h     = relu feat2,     r     = (relu (h · A1 + b1)) · A2 + b2,  laid out as [n, 12, 32].
  The message passing is the same printed chain of operations in both programs and is carried as one
  function; the dense steps are the products, positive parts and row biases of the specification. A
  bias enters a dense step as a one-row matrix added to every row: a bias vector recast as one row,
  and the same vector spread first to one row and then over all rows, add the same number to an entry.
-/
import proofs.«143289_j25632364822536_1_alg».proof.Proof.HostChain
import proofs.«143289_j25632364822536_1_alg».proof.Proof.Spec
import Idealize.ShloMosaic.Lib.Pipeline.Value
import Idealize.ShloMosaic.Lib.ValueLayout

noncomputable section

namespace Cert.Net

open Cert.KernelIdeal Cert.KernelIdeal.Facts₀ Idealize.ShloMosaic Idealize.ShloMosaic.TcCoe
open Idealize.ShloMosaic.ValueIdx Idealize.ShloMosaic.RowBlockProduct

/-- An array of the given shape and element type at the extended reals. -/
abbrev Arr (S : Shape) (e : EltTy) : Type := (⟨S, e⟩ : BufTy).Contents (Elt Ideal)

/-- The first layer's aggregated features: one round of message passing over `x · W1`. -/
def feat1 (x0 : Arr S100000x64 .f32) (x1 : Arr S2x1600000 .i32) (x2 : Arr S1600000 .f32) (x3 : Arr S64x64 .f32) :
    Arr S100000x64 .f32 :=
  Cert.Chain.aggOf (F := Ideal) (prod (R := 100000) (K := 64) (N := 64) x0 x3) x1 x2

/-- The second layer's aggregated features: one round of message passing over `relu feat1 · W2`. -/
def feat2 (x0 : Arr S100000x64 .f32) (x1 : Arr S2x1600000 .i32) (x2 : Arr S1600000 .f32) (x3 x4 : Arr S64x64 .f32) :
    Arr S100000x64 .f32 :=
  Cert.Chain.aggOf (F := Ideal) (Cert.Spec.reluLin (a := 100000) (k := 64) (n := 64) (feat1 x0 x1 x2 x3) x4) x1 x2

/-- The node embedding the network returns: the positive part of the second layer's features. -/
def hOut (x0 : Arr S100000x64 .f32) (x1 : Arr S2x1600000 .i32) (x2 : Arr S1600000 .f32) (x3 x4 : Arr S64x64 .f32) :
    Arr S100000x64 .f32 :=
  Cert.Spec.relu (a := 100000) (b := 64) (feat2 x0 x1 x2 x3 x4)

/-- The readout before it is laid out by horizon: two dense layers over the second layer's features, the
    biases entering as one-row matrices. -/
def rFlat (x0 : Arr S100000x64 .f32) (x1 : Arr S2x1600000 .i32) (x2 : Arr S1600000 .f32) (x3 x4 x5 : Arr S64x64 .f32)
    (x6 : Arr S64 .f32) (x7 : Arr S64x384 .f32) (x8 : Arr S384 .f32) : Arr S100000x384 .f32 :=
  Cert.Spec.readout (a := 100000) (k := 64) (n := 384) (feat2 x0 x1 x2 x3 x4) x5
    (shapeCast S1x64 x6 shapeCasts_S64_S1x64) x7 (shapeCast S1x384 x8 shapeCasts_S384_S1x384)

/-- The readout the network returns, [n, 12, 32]: `rFlat` with each row of 384 read as 12 rows of 32. -/
def rOut (x0 : Arr S100000x64 .f32) (x1 : Arr S2x1600000 .i32) (x2 : Arr S1600000 .f32) (x3 x4 x5 : Arr S64x64 .f32)
    (x6 : Arr S64 .f32) (x7 : Arr S64x384 .f32) (x8 : Arr S384 .f32) : Arr S100000x12x32 .f32 :=
  shapeCast S100000x12x32 (rFlat x0 x1 x2 x3 x4 x5 x6 x7 x8) shapeCasts_S100000x384_S100000x12x32

/-- A bias vector recast as one row and added to every row adds `b q` to the entry `(p, q)`. -/
theorem addRow_cast_apply {a n : ℕ} (y : Cert.Spec.Mat a n) (b : (⟨1, ![n]⟩ : Shape).Idx → EReal)
    (h : (⟨1, ![n]⟩ : Shape).ShapeCasts ⟨2, ![1, n]⟩) (p : Fin a) (q : Fin n) :
    Cert.Spec.addRow y (shapeCast ⟨2, ![1, n]⟩ b h) (ix2 p q) = y (ix2 p q) + b (ix1 q) := by
  rw [Cert.Spec.addRow_apply, shapeCast_a_1a_apply]

end Cert.Net

end
-- ==== Proof.Region0.lean ====
/-
  The first dense layer, ten row blocks of 10000 nodes: after the last grid point the output array is the
  whole product of the node features with the weights. Point t multiplies rows 10000·t … 10000·t + 9999 of
  the features by the whole 64 × 64 weight matrix into a zero accumulator, which is rows
  10000·t … 10000·t + 9999 of the whole product; the ten blocks tile the 100000 rows.
-/
import proofs.«143289_j25632364822536_1_alg».proof.Proof.Gen.KernelIdeal.Frame
import proofs.«143289_j25632364822536_1_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.RegionVal

open Cert.KernelIdeal Cert.KernelIdeal.Gen Idealize.ShloMosaic Idealize.ShloMosaic.TcCoe Idealize.SL.Sem
open Idealize.ShloMosaic.ValueIdx Idealize.ShloMosaic.RowBlockProduct Idealize.ShloMosaic.PlainDot
open Idealize.ShloMosaic.Pipeline (Dat Cfg Window)

-- the TensorCore's buffer contents when the region is entered
variable (V : (c : Dev nD) → (b : Ref sig .tc) → Buf (Elt Ideal) ((c : Thread nD τ).loc b))

namespace FirstLayer

/-- The two zero offsets of a whole-buffer access are the constant zero function. -/
theorem zero_offsets : (![0, 0] : Fin 2 → Nat) = fun _ => 0 := funext fun a => by fin_cases a <;> rfl

/-- The layer's product contracts the left operand's columns against the right operand's rows, with no
    batch axis: the plain matrix product. -/
theorem plain_dims : IsPlain dot_S10000x64_S64x64_S10000x64_1_0_0_1_n_n := ⟨rfl, rfl, rfl, rfl, rfl, rfl⟩

/-- A block of 10000 rows of `A` starting at row `o`, times the whole of `B`, is rows `o … o + 9999` of the
    whole product: entry (p, q) of the block's product is entry (o + p, q) of `prod A B`, the same sum over
    the contracted index. -/
theorem block_product (x0 : Vec Ideal S10000x64 .f32) (x1 : Vec Ideal S64x64 .f32)
    (A : Cert.Spec.Mat 100000 64) (B : Cert.Spec.Mat 64 64) (o : ℕ) (ho : o + 10000 ≤ 100000)
    (hx0 : ∀ (p : Fin 10000) (k : Fin 64), x0 (ix2 p k) = A (ix2 ⟨o + p.val, by have := p.isLt; omega⟩ k))
    (hx1 : ∀ (k : Fin 64) (q : Fin 64), x1 (ix2 k q) = B (ix2 k q)) (p : Fin 10000) (q : Fin 64) :
    k0_pay1 (F := Ideal) x0 x1 (ix2 p q) = prod A B (ix2 ⟨o + p.val, by have := p.isLt; omega⟩ q) := by
  unfold k0_pay1
  -- a change of float format is the identity on extended reals, so the operands are the blocks themselves
  exact matmul_rows plain_dims none A B _ _ o ho (fun p k => hx0 p k) (fun k q => hx1 k q) p q

/-- The index maps over the ten grid points: the feature window and the output window sit at row block
    `t`, column block 0; the weight window is the whole matrix at every point. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `10000·t … 10000·t + 9999` of the whole product. -/
theorem flushed_eq (c : Dev nD) (t : Fin cfg0.N) :
    (dat0 (F := Ideal) V c).flushed 2 t
      = ((cfg0.win 2).blk t).view.read (Elt Ideal)
          (prod (R := 100000) (K := 64) (N := 64) (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  obtain ⟨e0, e1, e2, e3, e4, e5⟩ := index_maps t
  have ht : t.val < 10 := t.isLt
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
      = prod (R := 100000) (K := 64) (N := 64) (V c main_arg0) (V c main_arg3)
          (((cfg0.win 2).blk t).view.emb (ix2 p q))
  -- entry (p, q) of the block is entry (10000·t + p, q) of the array
  have hrow : ((cfg0.win 2).blk t).view.emb (ix2 p q)
      = (ix2 (⟨10000 * t.val + p.val, by have := p.isLt; omega⟩ : Fin 100000) q : S100000x64.Idx) := by
    funext a; apply Fin.ext
    match a with
    | ⟨0, _⟩ => show win0_2.index t (0 : Fin 2) * 10000 + 1 * p.val = 10000 * t.val + p.val; omega
    | ⟨1, _⟩ => show win0_2.index t (1 : Fin 2) * 64 + 1 * q.val = q.val; omega
  rw [hrow]
  refine block_product _ _ _ _ (10000 * t.val) (by omega) (fun p' k => ?_) (fun k q' => ?_) p q
  · -- the feature block holds rows 10000·t … 10000·t + 9999 of the feature array
    show V c main_arg0 (((cfg0.win 0).blk t).view.emb (ix2 p' k)) = V c main_arg0 _
    congr 1
    funext a; apply Fin.ext
    match a with
    | ⟨0, _⟩ => show win0_0.index t (0 : Fin 2) * 10000 + 1 * p'.val = 10000 * t.val + p'.val; omega
    | ⟨1, _⟩ => show win0_0.index t (1 : Fin 2) * 64 + 1 * k.val = k.val; omega
  · -- the weight block is the whole weight matrix
    show V c main_arg3 (((cfg0.win 1).blk t).view.emb (ix2 k q')) = V c main_arg3 _
    congr 1
    funext a; apply Fin.ext
    match a with
    | ⟨0, _⟩ => show win0_1.index t (0 : Fin 2) * 64 + 1 * k.val = k.val; omega
    | ⟨1, _⟩ => show win0_1.index t (1 : Fin 2) * 64 + 1 * q'.val = q'.val; omega

/-- The grid has ten points, one per row block. -/
theorem grid_points : cfg0.N = 10 := by decide +kernel

/-- An index of the array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- The ten blocks tile the 100000 rows: row `r` is in the block of point `r / 10000`, and every point
    writes its block back. -/
theorem blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := grid_points
  let t : Fin cfg0.N := ⟨(i 0).val / 10000, by rw [hN]; omega⟩
  have htv : t.val = (i 0).val / 10000 := rfl
  obtain ⟨e0, e1, e2, e3, e4, e5⟩ := index_maps t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

end FirstLayer

/-- The output array of the first dense layer, after every grid point has written its block back, is the
    product of the two input arrays as the region finds them. -/
theorem region0_out (c : Dev nD) :
    (dat0 (F := Ideal) V c).arrAt 2 cfg0.N
      = (prod (R := 100000) (K := 64) (N := 64) (V c main_arg0) (V c main_arg3)) :=
  (dat0 (F := Ideal) V c).arrAt_eq_of_cover 2 _ (fun t _ => FirstLayer.flushed_eq V c t) FirstLayer.blocks_cover

end Cert.KernelIdeal.RegionVal

end
-- ==== Proof.Region1.lean ====
/-
  The second dense layer's input transform, ten row blocks of 10000 nodes: after the last grid point the
  output array is the product of the positive part of the aggregated features with the weights. Point t
  takes the positive part of rows 10000·t … 10000·t + 9999 and multiplies them by the whole 64 × 64 weight
  matrix into a zero accumulator; the positive part acts entry by entry, so these are the same rows of the
  whole-array function, and the ten blocks tile the 100000 rows.
-/
import proofs.«143289_j25632364822536_1_alg».proof.Proof.Gen.KernelIdeal.Frame
import proofs.«143289_j25632364822536_1_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.RegionVal

open Cert.KernelIdeal Cert.KernelIdeal.Gen Idealize.ShloMosaic Idealize.ShloMosaic.TcCoe Idealize.SL.Sem
open Idealize.ShloMosaic.ValueIdx Idealize.ShloMosaic.RowBlockProduct Idealize.ShloMosaic.PlainDot
open Idealize.ShloMosaic.Pipeline (Dat Cfg Window)

-- the TensorCore's buffer contents when the region is entered
variable (V : (c : Dev nD) → (b : Ref sig .tc) → Buf (Elt Ideal) ((c : Thread nD τ).loc b))

namespace SecondLayer

/-- The two zero offsets of a whole-buffer access are the constant zero function. -/
theorem zero_offsets : (![0, 0] : Fin 2 → Nat) = fun _ => 0 := funext fun a => by fin_cases a <;> rfl

/-- The layer's product contracts the left operand's columns against the right operand's rows, with no
    batch axis: the plain matrix product. -/
theorem plain_dims : IsPlain dot_S10000x64_S64x64_S10000x64_1_0_0_1_n_n := ⟨rfl, rfl, rfl, rfl, rfl, rfl⟩

/-- The positive part of a block of rows is the same rows of the positive part of the whole matrix: the
    larger of an entry and zero looks at that entry alone. -/
theorem block_relu (x0 : Vec Ideal S10000x64 .f32) (A : Cert.Spec.Mat 100000 64) (o : ℕ) (ho : o + 10000 ≤ 100000)
    (hx0 : ∀ (p : Fin 10000) (k : Fin 64), x0 (ix2 p k) = A (ix2 ⟨o + p.val, by have := p.isLt; omega⟩ k))
    (p : Fin 10000) (k : Fin 64) :
    max (x0 (ix2 p k)) (Ideal.ofBits .f32 0x00000000#32)
      = Cert.Spec.relu A (ix2 ⟨o + p.val, by have := p.isLt; omega⟩ k) := by
  rw [Cert.Spec.relu_apply, hx0 p k]

/-- The positive part of a block of 10000 rows of `A` starting at row `o`, times the whole of `B`, is rows
    `o … o + 9999` of the product of the positive part of `A` with `B`. -/
theorem block_product (x0 : Vec Ideal S10000x64 .f32) (x1 : Vec Ideal S64x64 .f32)
    (A : Cert.Spec.Mat 100000 64) (B : Cert.Spec.Mat 64 64) (o : ℕ) (ho : o + 10000 ≤ 100000)
    (hx0 : ∀ (p : Fin 10000) (k : Fin 64), x0 (ix2 p k) = A (ix2 ⟨o + p.val, by have := p.isLt; omega⟩ k))
    (hx1 : ∀ (k : Fin 64) (q : Fin 64), x1 (ix2 k q) = B (ix2 k q)) (p : Fin 10000) (q : Fin 64) :
    k1_pay1 (F := Ideal) x0 x1 (ix2 p q)
      = Cert.Spec.reluLin A B (ix2 ⟨o + p.val, by have := p.isLt; omega⟩ q) := by
  unfold k1_pay1 Cert.Spec.reluLin
  rw [shapeCast_self]
  -- the left operand at (p, k) is the larger of the block's entry and zero; a change of float format is the
  -- identity on extended reals
  exact matmul_rows plain_dims none (Cert.Spec.relu A) B _ _ o ho
    (fun p k => block_relu x0 A o ho hx0 p k) (fun k q => hx1 k q) p q

/-- The index maps over the ten grid points: the feature window and the output window sit at row block
    `t`, column block 0; the weight window is the whole matrix at every point. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows `10000·t … 10000·t + 9999` of the positive part of the features times
    the weights. -/
theorem flushed_eq (c : Dev nD) (t : Fin cfg1.N) :
    (dat1 (F := Ideal) V c).flushed 2 t
      = ((cfg1.win 2).blk t).view.read (Elt Ideal)
          (Cert.Spec.reluLin (a := 100000) (k := 64) (n := 64) (V c main_v45) (V c main_arg4)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x64) zero_offsets]
  obtain ⟨e0, e1, e2, e3, e4, e5⟩ := index_maps t
  have ht : t.val < 10 := t.isLt
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q)
      = Cert.Spec.reluLin (a := 100000) (k := 64) (n := 64) (V c main_v45) (V c main_arg4)
          (((cfg1.win 2).blk t).view.emb (ix2 p q))
  -- entry (p, q) of the block is entry (10000·t + p, q) of the array
  have hrow : ((cfg1.win 2).blk t).view.emb (ix2 p q)
      = (ix2 (⟨10000 * t.val + p.val, by have := p.isLt; omega⟩ : Fin 100000) q : S100000x64.Idx) := by
    funext a; apply Fin.ext
    match a with
    | ⟨0, _⟩ => show win1_2.index t (0 : Fin 2) * 10000 + 1 * p.val = 10000 * t.val + p.val; omega
    | ⟨1, _⟩ => show win1_2.index t (1 : Fin 2) * 64 + 1 * q.val = q.val; omega
  rw [hrow]
  refine block_product _ _ _ _ (10000 * t.val) (by omega) (fun p' k => ?_) (fun k q' => ?_) p q
  · -- the feature block holds rows 10000·t … 10000·t + 9999 of the aggregated features
    show V c main_v45 (((cfg1.win 0).blk t).view.emb (ix2 p' k)) = V c main_v45 _
    congr 1
    funext a; apply Fin.ext
    match a with
    | ⟨0, _⟩ => show win1_0.index t (0 : Fin 2) * 10000 + 1 * p'.val = 10000 * t.val + p'.val; omega
    | ⟨1, _⟩ => show win1_0.index t (1 : Fin 2) * 64 + 1 * k.val = k.val; omega
  · -- the weight block is the whole weight matrix
    show V c main_arg4 (((cfg1.win 1).blk t).view.emb (ix2 k q')) = V c main_arg4 _
    congr 1
    funext a; apply Fin.ext
    match a with
    | ⟨0, _⟩ => show win1_1.index t (0 : Fin 2) * 64 + 1 * k.val = k.val; omega
    | ⟨1, _⟩ => show win1_1.index t (1 : Fin 2) * 64 + 1 * q'.val = q'.val; omega

/-- The grid has ten points, one per row block. -/
theorem grid_points : cfg1.N = 10 := by decide +kernel

/-- An index of the array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v46).slice (win1_2.rect t)).set ↔ _
  rw [View.set_slice_whole, Rect.mem_set_unit]
  exact Iff.rfl

/-- The ten blocks tile the 100000 rows: row `r` is in the block of point `r / 10000`, and every point
    writes its block back. -/
theorem blocks_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := grid_points
  let t : Fin cfg1.N := ⟨(i 0).val / 10000, by rw [hN]; omega⟩
  have htv : t.val = (i 0).val / 10000 := rfl
  obtain ⟨e0, e1, e2, e3, e4, e5⟩ := index_maps t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

end SecondLayer

/-- The output array of the second dense layer, after every grid point has written its block back, is the
    positive part of the first input array times the second, both as the region finds them. -/
theorem region1_out (c : Dev nD) :
    (dat1 (F := Ideal) V c).arrAt 2 cfg1.N
      = (Cert.Spec.reluLin (a := 100000) (k := 64) (n := 64) (V c main_v45) (V c main_arg4)) :=
  (dat1 (F := Ideal) V c).arrAt_eq_of_cover 2 _ (fun t _ => SecondLayer.flushed_eq V c t) SecondLayer.blocks_cover

end Cert.KernelIdeal.RegionVal

end
-- ==== Proof.Region2.lean ====
/-
  The readout, fifty row blocks of 2000 nodes, two output arrays. Point t takes the positive part h of rows
  2000·t … 2000·t + 1999 of the aggregated features and writes it to the first output; then
  (positive part of (h · A1 + b1)) · A2 + b2 to the second. Every step acts on a row at a time (a product
  with a whole weight matrix, a one-row bias added to each row, the positive part entry by entry), so each
  block is the same rows of the whole-array function, and the fifty blocks tile the 100000 rows.
-/
import proofs.«143289_j25632364822536_1_alg».proof.Proof.Gen.KernelIdeal.Frame
import proofs.«143289_j25632364822536_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.RegionVal

open Cert.KernelIdeal Cert.KernelIdeal.Gen Idealize.ShloMosaic Idealize.ShloMosaic.TcCoe Idealize.SL.Sem
open Idealize.ShloMosaic.ValueIdx Idealize.ShloMosaic.RowBlockProduct Idealize.ShloMosaic.PlainDot
open Idealize.ShloMosaic.Pipeline (Dat Cfg Window)

-- the TensorCore's buffer contents when the region is entered
variable (V : (c : Dev nD) → (b : Ref sig .tc) → Buf (Elt Ideal) ((c : Thread nD τ).loc b))

namespace Readout

/-! ## One grid point's arithmetic at an entry

  A point holds 2000 consecutive rows of the aggregated features, the rows from `o` on, and the four weight and bias
  arrays whole. Each operation of the readout acts inside a row, so an entry (p, q) of what the point computes is
  the entry (o + p, q) of the same operation applied to all 100000 rows. -/

/-- The two dense layers' dimension numbers are the plain ones of a matrix product. -/
theorem plain_hidden : IsPlain dot_S2000x64_S64x64_S2000x64_1_0_0_1_n_n := ⟨rfl, rfl, rfl, rfl, rfl, rfl⟩
theorem plain_out : IsPlain dot_S2000x64_S64x384_S2000x384_1_0_0_1_n_n := ⟨rfl, rfl, rfl, rfl, rfl, rfl⟩

/-- The positive part of a block of rows is the same rows of the positive part of the matrix. -/
theorem relu_rows (G : Cert.Spec.Mat 100000 64) (x0 : FVec Ideal S2000x64 .f32) (o : ℕ) (ho : o + 2000 ≤ 100000)
    (hx0 : ∀ (p : Fin 2000) (k : Fin 64), x0 (ix2 p k) = G (ix2 ⟨o + p.val, by have := p.isLt; omega⟩ k))
    (p : Fin 2000) (q : Fin 64) :
    k2_pay1 (F := Ideal) x0 (ix2 p q) = Cert.Spec.relu G (ix2 ⟨o + p.val, by have := p.isLt; omega⟩ q) := by
  unfold k2_pay1
  rw [Cert.Spec.relu_apply, maximumf_apply, shapeCast_self, hx0 p q]
  rfl

/-- A one-row matrix, spread over 2000 rows, read at (p, q) is the row's entry q. -/
theorem bias_row {n : ℕ} (x : FVec Ideal (⟨2, ![1, n]⟩ : Shape) .f32) (b : Cert.Spec.Mat 1 n)
    (hs : (⟨2, ![1, n]⟩ : Shape).ShapeCasts ⟨2, ![1, n]⟩) (hb : (⟨2, ![1, n]⟩ : Shape).Broadcasts ⟨2, ![2000, n]⟩)
    (hx : ∀ (a : Fin 1) (q : Fin n), x (ix2 a q) = b (ix2 a q)) (p : Fin 2000) (q : Fin n) :
    broadcastTo (⟨2, ![2000, n]⟩ : Shape) (shapeCast (⟨2, ![1, n]⟩ : Shape) x hs) hb (ix2 p q) = b (ix2 (0 : Fin 1) q) := by
  refine (broadcastTo_1b_ab_apply _ hb p q).trans ?_
  rw [shapeCast_self]
  exact hx 0 q

/-- The readout of a block of rows is the same rows of the readout of the matrix: the hidden layer's entry
    (p, k) is a sum over one row of the block against a column of the first weights, plus the first bias at k,
    then its positive part; the output's entry (p, q) is a sum over that hidden row against a column of the
    second weights, plus the second bias at q. -/
theorem readout_rows (G : Cert.Spec.Mat 100000 64) (A1 : Cert.Spec.Mat 64 64) (b1 : Cert.Spec.Mat 1 64)
    (A2 : Cert.Spec.Mat 64 384) (b2 : Cert.Spec.Mat 1 384)
    (x0 : FVec Ideal S2000x64 .f32) (x1 : FVec Ideal S64x64 .f32) (x2 : FVec Ideal S1x64 .f32)
    (x3 : FVec Ideal S64x384 .f32) (x4 : FVec Ideal S1x384 .f32) (o : ℕ) (ho : o + 2000 ≤ 100000)
    (hx0 : ∀ (p : Fin 2000) (k : Fin 64), x0 (ix2 p k) = G (ix2 ⟨o + p.val, by have := p.isLt; omega⟩ k))
    (hx1 : ∀ (k : Fin 64) (q : Fin 64), x1 (ix2 k q) = A1 (ix2 k q))
    (hx2 : ∀ (a : Fin 1) (q : Fin 64), x2 (ix2 a q) = b1 (ix2 a q))
    (hx3 : ∀ (k : Fin 64) (q : Fin 384), x3 (ix2 k q) = A2 (ix2 k q))
    (hx4 : ∀ (a : Fin 1) (q : Fin 384), x4 (ix2 a q) = b2 (ix2 a q))
    (p : Fin 2000) (q : Fin 384) :
    k2_pay2 (F := Ideal) x0 x1 x2 x3 x4 (ix2 p q)
      = Cert.Spec.readout G A1 b1 A2 b2 (ix2 ⟨o + p.val, by have := p.isLt; omega⟩ q) := by
  unfold k2_pay2 Cert.Spec.readout
  refine Eq.trans ?_ (Cert.Spec.addRow_apply _ _ _ _).symm
  refine (addf_apply _ _ _).trans (congrArg₂ (· + ·) ?_ ?_)
  · refine matmul_rows plain_out none (Cert.Spec.relu (Cert.Spec.addRow (prod (Cert.Spec.relu G) A1) b1)) A2 _ _ o ho
      (fun p k => ?_) hx3 p q
    refine Eq.trans ?_ ((Cert.Spec.relu_apply _ _ _).trans (congrArg (max · Cert.Spec.zero32) (Cert.Spec.addRow_apply _ _ _ _))).symm
    refine (maximumf_apply _ _ _).trans (congrArg₂ max ((addf_apply _ _ _).trans (congrArg₂ (· + ·) ?_ ?_)) rfl)
    · exact matmul_rows plain_hidden none (Cert.Spec.relu G) A1 _ _ o ho (fun p k => relu_rows G x0 o ho hx0 p k) hx1 p k
    · exact bias_row x2 b1 _ _ hx2 p k
  · exact bias_row x4 b2 _ _ hx4 p q

/-! ## Where each window's block lies in its array

  The index maps, decided over the fifty points: the aggregated features and both outputs move down 2000 rows per
  point (block index (t, 0)); the weights and biases stay whole (block index (0, 0)). -/

theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem point_lt (t : Fin cfg2.N) : t.val < 50 := t.isLt

theorem zero_offsets : (![0, 0] : Fin 2 → Nat) = fun _ => 0 := funext fun a => by fin_cases a <;> rfl

/-- Point t's block of the aggregated features is rows 2000·t … 2000·t + 1999 of the array. -/
theorem features_block (c : Dev nD) (t : Fin cfg2.N) (p : Fin 2000) (k : Fin 64) :
    (iblk2 (F := Ideal) V c 0 t : FVec Ideal S2000x64 .f32) (ix2 p k)
      = (V c main_v59 : Cert.Spec.Mat 100000 64) (ix2 ⟨2000 * t.val + p.val, by have := point_lt t; have := p.isLt; omega⟩ k) := by
  obtain ⟨e0, e1, -⟩ := block_indices t
  unfold iblk2
  show V c main_v59 (((cfg2.win 0).blk t).view.emb (ix2 p k)) = _
  refine congrArg (V c main_v59) (funext fun a => Fin.ext ?_)
  match a with
  | ⟨0, _⟩ => show win2_0.index t (0 : Fin 2) * 2000 + 1 * p.val = 2000 * t.val + p.val; omega
  | ⟨1, _⟩ => show win2_0.index t (1 : Fin 2) * 64 + 1 * k.val = k.val; omega

/-- Every point's block of the first weights is the whole array. -/
theorem weights1_block (c : Dev nD) (t : Fin cfg2.N) (k : Fin 64) (q : Fin 64) :
    (iblk2 (F := Ideal) V c 1 t : FVec Ideal S64x64 .f32) (ix2 k q) = (V c main_arg5 : Cert.Spec.Mat 64 64) (ix2 k q) := by
  obtain ⟨-, -, e0, e1, -⟩ := block_indices t
  unfold iblk2
  show V c main_arg5 (((cfg2.win 1).blk t).view.emb (ix2 k q)) = _
  refine congrArg (V c main_arg5) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- Every point's block of the first bias is the whole row. -/
theorem bias1_block (c : Dev nD) (t : Fin cfg2.N) (a : Fin 1) (q : Fin 64) :
    (iblk2 (F := Ideal) V c 2 t : FVec Ideal S1x64 .f32) (ix2 a q) = (V c main_v60 : Cert.Spec.Mat 1 64) (ix2 a q) := by
  obtain ⟨-, -, -, -, e0, e1, -⟩ := block_indices t
  unfold iblk2
  show V c main_v60 (((cfg2.win 2).blk t).view.emb (ix2 a q)) = _
  refine congrArg (V c main_v60) (funext fun b => Fin.ext ?_)
  match b with
  | ⟨0, _⟩ => show win2_2.index t (0 : Fin 2) * 1 + 1 * a.val = a.val; omega
  | ⟨1, _⟩ => show win2_2.index t (1 : Fin 2) * 64 + 1 * q.val = q.val; omega

/-- Every point's block of the second weights is the whole array. -/
theorem weights2_block (c : Dev nD) (t : Fin cfg2.N) (k : Fin 64) (q : Fin 384) :
    (iblk2 (F := Ideal) V c 3 t : FVec Ideal S64x384 .f32) (ix2 k q) = (V c main_arg7 : Cert.Spec.Mat 64 384) (ix2 k q) := by
  obtain ⟨-, -, -, -, -, -, e0, e1, -⟩ := block_indices t
  unfold iblk2
  show V c main_arg7 (((cfg2.win 3).blk t).view.emb (ix2 k q)) = _
  refine congrArg (V c main_arg7) (funext fun a => Fin.ext ?_)
  match a with
  | ⟨0, _⟩ => show win2_3.index t (0 : Fin 2) * 64 + 1 * k.val = k.val; omega
  | ⟨1, _⟩ => show win2_3.index t (1 : Fin 2) * 384 + 1 * q.val = q.val; omega

/-- Every point's block of the second bias is the whole row. -/
theorem bias2_block (c : Dev nD) (t : Fin cfg2.N) (a : Fin 1) (q : Fin 384) :
    (iblk2 (F := Ideal) V c 4 t : FVec Ideal S1x384 .f32) (ix2 a q) = (V c main_v61 : Cert.Spec.Mat 1 384) (ix2 a q) := by
  obtain ⟨-, -, -, -, -, -, -, -, e0, e1, -⟩ := block_indices t
  unfold iblk2
  show V c main_v61 (((cfg2.win 4).blk t).view.emb (ix2 a q)) = _
  refine congrArg (V c main_v61) (funext fun b => Fin.ext ?_)
  match b with
  | ⟨0, _⟩ => show win2_4.index t (0 : Fin 2) * 1 + 1 * a.val = a.val; omega
  | ⟨1, _⟩ => show win2_4.index t (1 : Fin 2) * 384 + 1 * q.val = q.val; omega

/-! ## What a point writes back -/

/-- Point t writes rows 2000·t … 2000·t + 1999 of the positive part of the aggregated features to the first output. -/
theorem written_h (c : Dev nD) (t : Fin cfg2.N) :
    (dat2 (F := Ideal) V c).flushed 5 t
      = ((cfg2.win 5).blk t).view.read (Elt Ideal) (Cert.Spec.relu (a := 100000) (b := 64) (V c main_v59)) := by
  show (cfg2.win 5).cut (grid2.coords t) ((dat2 V c).after 5 t) = _
  rw [after2_5]
  unfold out2_5
  rw [View.canon_unit_zero zero_offsets]
  simp only [View.ld_unit_zero (S := S2000x64) zero_offsets]
  have ht := point_lt t
  obtain ⟨-, -, -, -, -, -, -, -, -, -, e0, e1, -⟩ := block_indices t
  funext j
  obtain ⟨p, q, rfl⟩ : ∃ (p : Fin 2000) (q : Fin 64), j = ix2 p q := ⟨j 0, j 1, eq_ix2 j⟩
  have hp := p.isLt
  have hrow : ((cfg2.win 5).blk t).view.emb (ix2 p q) = ix2 (⟨2000 * t.val + p.val, by omega⟩ : Fin 100000) q := by
    funext a; apply Fin.ext
    match a with
    | ⟨0, _⟩ => show win2_5.index t (0 : Fin 2) * 2000 + 1 * p.val = 2000 * t.val + p.val; omega
    | ⟨1, _⟩ => show win2_5.index t (1 : Fin 2) * 64 + 1 * q.val = q.val; omega
  show k2_pay1 (F := Ideal) (iblk2 V c 0 t) (ix2 p q)
    = Cert.Spec.relu (a := 100000) (b := 64) (V c main_v59) (((cfg2.win 5).blk t).view.emb (ix2 p q))
  rw [hrow]
  exact relu_rows (V c main_v59) (iblk2 V c 0 t) (2000 * t.val) (by omega) (features_block V c t) p q

/-- Point t writes rows 2000·t … 2000·t + 1999 of the readout of the aggregated features to the second output. -/
theorem written_r (c : Dev nD) (t : Fin cfg2.N) :
    (dat2 (F := Ideal) V c).flushed 6 t
      = ((cfg2.win 6).blk t).view.read (Elt Ideal) (Cert.Spec.readout (a := 100000) (k := 64) (n := 384)
          (V c main_v59) (V c main_arg5) (V c main_v60) (V c main_arg7) (V c main_v61)) := by
  show (cfg2.win 6).cut (grid2.coords t) ((dat2 V c).after 6 t) = _
  rw [after2_6]
  unfold out2_6
  rw [View.canon_unit_zero zero_offsets]
  simp only [View.ld_unit_zero (S := S2000x64) zero_offsets, View.ld_unit_zero (S := S64x64) zero_offsets,
    View.ld_unit_zero (S := S1x64) zero_offsets, View.ld_unit_zero (S := S64x384) zero_offsets,
    View.ld_unit_zero (S := S1x384) zero_offsets]
  have ht := point_lt t
  obtain ⟨-, -, -, -, -, -, -, -, -, -, -, -, e0, e1⟩ := block_indices t
  funext j
  obtain ⟨p, q, rfl⟩ : ∃ (p : Fin 2000) (q : Fin 384), j = ix2 p q := ⟨j 0, j 1, eq_ix2 j⟩
  have hp := p.isLt
  have hrow : ((cfg2.win 6).blk t).view.emb (ix2 p q) = ix2 (⟨2000 * t.val + p.val, by omega⟩ : Fin 100000) q := by
    funext a; apply Fin.ext
    match a with
    | ⟨0, _⟩ => show win2_6.index t (0 : Fin 2) * 2000 + 1 * p.val = 2000 * t.val + p.val; omega
    | ⟨1, _⟩ => show win2_6.index t (1 : Fin 2) * 384 + 1 * q.val = q.val; omega
  show k2_pay2 (F := Ideal) (iblk2 V c 0 t) (iblk2 V c 1 t) (iblk2 V c 2 t) (iblk2 V c 3 t) (iblk2 V c 4 t) (ix2 p q)
    = Cert.Spec.readout (a := 100000) (k := 64) (n := 384) (V c main_v59) (V c main_arg5) (V c main_v60) (V c main_arg7)
        (V c main_v61) (((cfg2.win 6).blk t).view.emb (ix2 p q))
  rw [hrow]
  exact readout_rows (V c main_v59) (V c main_arg5) (V c main_v60) (V c main_arg7) (V c main_v61)
    (iblk2 V c 0 t) (iblk2 V c 1 t) (iblk2 V c 2 t) (iblk2 V c 3 t) (iblk2 V c 4 t) (2000 * t.val) (by omega)
    (features_block V c t) (weights1_block V c t) (bias1_block V c t) (weights2_block V c t) (bias2_block V c t) p q

/-! ## The fifty blocks tile the 100000 rows -/

/-- An entry of the first output lies in point t's block iff each coordinate is in the block's range. -/
theorem mem_block_h (t : Fin cfg2.N) (i : S100000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v62_0).slice (win2_5.rect t)).set ↔ _
  rw [View.set_slice_whole, Rect.mem_set_unit]
  exact Iff.rfl

/-- An entry of the second output lies in point t's block iff each coordinate is in the block's range. -/
theorem mem_block_r (t : Fin cfg2.N) (i : S100000x384.Idx) :
    i ∈ ((cfg2.win 6).blk t).view.set ↔ ∀ a : Fin 2, win2_6.index t a * S2000x384.size a ≤ (i a).val
      ∧ (i a).val < win2_6.index t a * S2000x384.size a + S2000x384.size a := by
  show i ∈ ((View.whole main_v62_1).slice (win2_6.rect t)).set ↔ _
  rw [View.set_slice_whole, Rect.mem_set_unit]
  exact Iff.rfl

/-- The point that writes row r. -/
def pointOf (r : ℕ) (hr : r < 100000) : Fin cfg2.N := ⟨r / 2000, by show r / 2000 < 50; omega⟩

/-- Row r of the first output is written by point r / 2000. -/
theorem cover_h (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have htv : (pointOf (i 0).val hi0).val = (i 0).val / 2000 := rfl
  obtain ⟨-, -, -, -, -, -, -, -, -, -, e0, e1, -⟩ := block_indices (pointOf (i 0).val hi0)
  refine ⟨pointOf (i 0).val hi0, flush2_5 _, ?_⟩
  rw [mem_block_h]
  intro a
  match a with
  | ⟨0, _⟩ =>
    show win2_5.index (pointOf (i 0).val hi0) (0 : Fin 2) * 2000 ≤ (i 0).val
      ∧ (i 0).val < win2_5.index (pointOf (i 0).val hi0) (0 : Fin 2) * 2000 + 2000
    omega
  | ⟨1, _⟩ =>
    show win2_5.index (pointOf (i 0).val hi0) (1 : Fin 2) * 64 ≤ (i 1).val
      ∧ (i 1).val < win2_5.index (pointOf (i 0).val hi0) (1 : Fin 2) * 64 + 64
    omega

/-- Row r of the second output is written by point r / 2000. -/
theorem cover_r (i : S100000x384.Idx) :
    ∃ t : Fin cfg2.N, (cfg2.win 6).flush t = true ∧ i ∈ ((cfg2.win 6).blk t).view.set := by
  have hi0 : (i 0).val < 100000 := (i 0).isLt
  have hi1 : (i 1).val < 384 := (i 1).isLt
  have htv : (pointOf (i 0).val hi0).val = (i 0).val / 2000 := rfl
  obtain ⟨-, -, -, -, -, -, -, -, -, -, -, -, e0, e1⟩ := block_indices (pointOf (i 0).val hi0)
  refine ⟨pointOf (i 0).val hi0, flush2_6 _, ?_⟩
  rw [mem_block_r]
  intro a
  match a with
  | ⟨0, _⟩ =>
    show win2_6.index (pointOf (i 0).val hi0) (0 : Fin 2) * 2000 ≤ (i 0).val
      ∧ (i 0).val < win2_6.index (pointOf (i 0).val hi0) (0 : Fin 2) * 2000 + 2000
    omega
  | ⟨1, _⟩ =>
    show win2_6.index (pointOf (i 0).val hi0) (1 : Fin 2) * 384 ≤ (i 1).val
      ∧ (i 1).val < win2_6.index (pointOf (i 0).val hi0) (1 : Fin 2) * 384 + 384
    omega

end Readout

/-! ## The two output arrays -/

/-- The first output array of the readout, after every grid point has written its block back: the positive
    part of the aggregated features as the region finds them. -/
theorem region2_h (c : Dev nD) :
    (dat2 (F := Ideal) V c).arrAt 5 cfg2.N = (Cert.Spec.relu (a := 100000) (b := 64) (V c main_v59)) :=
  (dat2 (F := Ideal) V c).arrAt_eq_of_cover 5 _ (fun t _ => Readout.written_h V c t) Readout.cover_h

/-- The second output array of the readout, after every grid point has written its block back: the two dense
    layers of the readout applied to the aggregated features, with the weights and the one-row biases as the
    region finds them. -/
theorem region2_r (c : Dev nD) :
    (dat2 (F := Ideal) V c).arrAt 6 cfg2.N
      = (Cert.Spec.readout (a := 100000) (k := 64) (n := 384) (V c main_v59) (V c main_arg5) (V c main_v60) (V c main_arg7) (V c main_v61)) :=
  (dat2 (F := Ideal) V c).arrAt_eq_of_cover 6 _ (fun t _ => Readout.written_r V c t) Readout.cover_r

end Cert.KernelIdeal.RegionVal

end
-- ==== Proof.KernelHost.lean ====
/-
  The kernel program's buffers at each boundary of @main, read as functions of the nine launch arguments.

  @main alternates stretches of array operations with the three dense regions. Before the first region the
  stretches build the edge list with self loops and the normalised edge weights; between the regions each
  stretch is one round of message passing over the region's output; after the last region the readout is laid
  out by horizon. A stretch reads what the boundary before it holds, a region leaves every buffer but its
  outputs as it found them, and a region's output array is the specification's dense step of its input arrays.
  Read in order, the two result buffers end at `hOut` and `rOut` of the launch arguments.

  The stretches are the same at every reading of the floats, so they are read with the float type abstract (no
  float operation is ever evaluated); only the dense regions are read at the extended reals.
-/
import proofs.«143289_j25632364822536_1_alg».proof.Proof.Gen.KernelIdeal.Frame
import proofs.«143289_j25632364822536_1_alg».proof.Proof.Net
import proofs.«143289_j25632364822536_1_alg».proof.Proof.Region0
import proofs.«143289_j25632364822536_1_alg».proof.Proof.Region1
import proofs.«143289_j25632364822536_1_alg».proof.Proof.Region2
import Idealize.ShloMosaic.Lib.StableHlo.Run

set_option maxRecDepth 16384

noncomputable section

namespace Cert.KernelIdeal.HostVal

open Cert.KernelIdeal Cert.KernelIdeal.Gen Cert.Chain Cert.Net Cert.KernelIdeal.RegionVal
open Idealize.ShloMosaic Idealize.ShloMosaic.TcCoe Idealize.SL.Sem Idealize.ShloMosaic.StableHlo
open Idealize.ShloMosaic.RowBlockProduct

/-! # The stretches, at any reading of the floats -/

section Stretches

variable {F : FTy → Type} [FloatOps F]
variable (m : (ℓ : Loc nD τ sig) → Buf (Elt F) ℓ) (ρ : Dev nD → PrngReg)

/-! ## The launch arguments on core `c` -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)

/-! ## At the first region's entry: the arguments as launched, the edge list and the normalised weights -/

theorem W3_arg0 (c : Dev nD) : W3 m ρ c (Proc.devRef .tc main_arg0) = A0 m c := by
  show StableHlo.after hostOps0_2 (StableHlo.after hostOps0_1 (StableHlo.after hostOps0 (W0 m ρ c))) (Proc.devRef .tc main_arg0) = _
  dsimp only [hostOps0, hostOps0_1, hostOps0_2]
  after_results_simp <;> rfl

theorem W3_arg3 (c : Dev nD) : W3 m ρ c (Proc.devRef .tc main_arg3) = A3 m c := by
  show StableHlo.after hostOps0_2 (StableHlo.after hostOps0_1 (StableHlo.after hostOps0 (W0 m ρ c))) (Proc.devRef .tc main_arg3) = _
  dsimp only [hostOps0, hostOps0_1, hostOps0_2]
  after_results_simp <;> rfl

theorem W3_arg4 (c : Dev nD) : W3 m ρ c (Proc.devRef .tc main_arg4) = A4 m c := by
  show StableHlo.after hostOps0_2 (StableHlo.after hostOps0_1 (StableHlo.after hostOps0 (W0 m ρ c))) (Proc.devRef .tc main_arg4) = _
  dsimp only [hostOps0, hostOps0_1, hostOps0_2]
  after_results_simp <;> rfl

theorem W3_arg5 (c : Dev nD) : W3 m ρ c (Proc.devRef .tc main_arg5) = A5 m c := by
  show StableHlo.after hostOps0_2 (StableHlo.after hostOps0_1 (StableHlo.after hostOps0 (W0 m ρ c))) (Proc.devRef .tc main_arg5) = _
  dsimp only [hostOps0, hostOps0_1, hostOps0_2]
  after_results_simp <;> rfl

theorem W3_arg6 (c : Dev nD) : W3 m ρ c (Proc.devRef .tc main_arg6) = A6 m c := by
  show StableHlo.after hostOps0_2 (StableHlo.after hostOps0_1 (StableHlo.after hostOps0 (W0 m ρ c))) (Proc.devRef .tc main_arg6) = _
  dsimp only [hostOps0, hostOps0_1, hostOps0_2]
  after_results_simp <;> rfl

theorem W3_arg7 (c : Dev nD) : W3 m ρ c (Proc.devRef .tc main_arg7) = A7 m c := by
  show StableHlo.after hostOps0_2 (StableHlo.after hostOps0_1 (StableHlo.after hostOps0 (W0 m ρ c))) (Proc.devRef .tc main_arg7) = _
  dsimp only [hostOps0, hostOps0_1, hostOps0_2]
  after_results_simp <;> rfl

theorem W3_arg8 (c : Dev nD) : W3 m ρ c (Proc.devRef .tc main_arg8) = A8 m c := by
  show StableHlo.after hostOps0_2 (StableHlo.after hostOps0_1 (StableHlo.after hostOps0 (W0 m ρ c))) (Proc.devRef .tc main_arg8) = _
  dsimp only [hostOps0, hostOps0_1, hostOps0_2]
  after_results_simp <;> rfl

theorem W3_v3 (c : Dev nD) : W3 m ρ c (Proc.devRef .tc main_v3) = rowOf (A1 m c) := by
  show StableHlo.after hostOps0_2 (StableHlo.after hostOps0_1 (StableHlo.after hostOps0 (W0 m ρ c))) (Proc.devRef .tc main_v3) = _
  dsimp only [hostOps0, hostOps0_1, hostOps0_2]
  after_results_simp <;> rfl

theorem W3_v6 (c : Dev nD) : W3 m ρ c (Proc.devRef .tc main_v6) = colOf (A1 m c) := by
  show StableHlo.after hostOps0_2 (StableHlo.after hostOps0_1 (StableHlo.after hostOps0 (W0 m ρ c))) (Proc.devRef .tc main_v6) = _
  dsimp only [hostOps0, hostOps0_1, hostOps0_2]
  after_results_simp <;> rfl

theorem W3_v31 (c : Dev nD) : W3 m ρ c (Proc.devRef .tc main_v31) = normOf (A1 m c) (A2 m c) := by
  show StableHlo.after hostOps0_2 (StableHlo.after hostOps0_1 (StableHlo.after hostOps0 (W0 m ρ c))) (Proc.devRef .tc main_v31) = _
  dsimp only [hostOps0, hostOps0_1, hostOps0_2]
  after_results_simp <;> rfl

/-! ## At the second region's entry: one round of message passing over the first region's output -/

theorem W5_v45_of (c : Dev nD) : W5 m ρ c (Proc.devRef .tc main_v45)
    = aggWith (W4 m ρ c (Proc.devRef .tc main_v32)) (rowOf (A1 m c)) (colOf (A1 m c)) (normOf (A1 m c) (A2 m c)) := by
  show StableHlo.after hostOps1 (W4 m ρ c) (Proc.devRef .tc main_v45) = _
  dsimp only [hostOps1]
  after_results_simp
  rw [W4_of_ne m ρ c main_v6 (by decide), W4_of_ne m ρ c main_v3 (by decide), W4_of_ne m ρ c main_v31 (by decide),
    W3_v6 m ρ c, W3_v3 m ρ c, W3_v31 m ρ c]
  rfl

theorem W5_arg4 (c : Dev nD) : W5 m ρ c (Proc.devRef .tc main_arg4) = A4 m c := by
  show StableHlo.after hostOps1 (W4 m ρ c) (Proc.devRef .tc main_arg4) = _
  dsimp only [hostOps1]
  after_results
  rw [W4_of_ne m ρ c main_arg4 (by decide)]
  exact W3_arg4 m ρ c

theorem W5_arg5 (c : Dev nD) : W5 m ρ c (Proc.devRef .tc main_arg5) = A5 m c := by
  show StableHlo.after hostOps1 (W4 m ρ c) (Proc.devRef .tc main_arg5) = _
  dsimp only [hostOps1]
  after_results
  rw [W4_of_ne m ρ c main_arg5 (by decide)]
  exact W3_arg5 m ρ c

theorem W5_arg6 (c : Dev nD) : W5 m ρ c (Proc.devRef .tc main_arg6) = A6 m c := by
  show StableHlo.after hostOps1 (W4 m ρ c) (Proc.devRef .tc main_arg6) = _
  dsimp only [hostOps1]
  after_results
  rw [W4_of_ne m ρ c main_arg6 (by decide)]
  exact W3_arg6 m ρ c

theorem W5_arg7 (c : Dev nD) : W5 m ρ c (Proc.devRef .tc main_arg7) = A7 m c := by
  show StableHlo.after hostOps1 (W4 m ρ c) (Proc.devRef .tc main_arg7) = _
  dsimp only [hostOps1]
  after_results
  rw [W4_of_ne m ρ c main_arg7 (by decide)]
  exact W3_arg7 m ρ c

theorem W5_arg8 (c : Dev nD) : W5 m ρ c (Proc.devRef .tc main_arg8) = A8 m c := by
  show StableHlo.after hostOps1 (W4 m ρ c) (Proc.devRef .tc main_arg8) = _
  dsimp only [hostOps1]
  after_results
  rw [W4_of_ne m ρ c main_arg8 (by decide)]
  exact W3_arg8 m ρ c

theorem W5_v3 (c : Dev nD) : W5 m ρ c (Proc.devRef .tc main_v3) = rowOf (A1 m c) := by
  show StableHlo.after hostOps1 (W4 m ρ c) (Proc.devRef .tc main_v3) = _
  dsimp only [hostOps1]
  after_results
  rw [W4_of_ne m ρ c main_v3 (by decide)]
  exact W3_v3 m ρ c

theorem W5_v6 (c : Dev nD) : W5 m ρ c (Proc.devRef .tc main_v6) = colOf (A1 m c) := by
  show StableHlo.after hostOps1 (W4 m ρ c) (Proc.devRef .tc main_v6) = _
  dsimp only [hostOps1]
  after_results
  rw [W4_of_ne m ρ c main_v6 (by decide)]
  exact W3_v6 m ρ c

theorem W5_v31 (c : Dev nD) : W5 m ρ c (Proc.devRef .tc main_v31) = normOf (A1 m c) (A2 m c) := by
  show StableHlo.after hostOps1 (W4 m ρ c) (Proc.devRef .tc main_v31) = _
  dsimp only [hostOps1]
  after_results
  rw [W4_of_ne m ρ c main_v31 (by decide)]
  exact W3_v31 m ρ c

/-! ## At the third region's entry: the second round of message passing, and the biases as one-row matrices -/

theorem W7_v59_of (c : Dev nD) : W7 m ρ c (Proc.devRef .tc main_v59)
    = aggWith (W6 m ρ c (Proc.devRef .tc main_v46)) (rowOf (A1 m c)) (colOf (A1 m c)) (normOf (A1 m c) (A2 m c)) := by
  show StableHlo.after hostOps2 (W6 m ρ c) (Proc.devRef .tc main_v59) = _
  dsimp only [hostOps2]
  after_results_simp
  rw [W6_of_ne m ρ c main_v6 (by decide), W6_of_ne m ρ c main_v3 (by decide), W6_of_ne m ρ c main_v31 (by decide),
    W5_v6 m ρ c, W5_v3 m ρ c, W5_v31 m ρ c]
  rfl

theorem W7_v60 (c : Dev nD) : W7 m ρ c (Proc.devRef .tc main_v60) = shapeCast S1x64 (A6 m c) Facts₀.shapeCasts_S64_S1x64 := by
  show StableHlo.after hostOps2 (W6 m ρ c) (Proc.devRef .tc main_v60) = _
  dsimp only [hostOps2]
  after_results
  rw [W6_of_ne m ρ c main_arg6 (by decide), W5_arg6 m ρ c]
  rfl

theorem W7_v61 (c : Dev nD) : W7 m ρ c (Proc.devRef .tc main_v61) = shapeCast S1x384 (A8 m c) Facts₀.shapeCasts_S384_S1x384 := by
  show StableHlo.after hostOps2 (W6 m ρ c) (Proc.devRef .tc main_v61) = _
  dsimp only [hostOps2]
  after_results
  rw [W6_of_ne m ρ c main_arg8 (by decide), W5_arg8 m ρ c]
  rfl

theorem W7_arg5 (c : Dev nD) : W7 m ρ c (Proc.devRef .tc main_arg5) = A5 m c := by
  show StableHlo.after hostOps2 (W6 m ρ c) (Proc.devRef .tc main_arg5) = _
  dsimp only [hostOps2]
  after_results
  rw [W6_of_ne m ρ c main_arg5 (by decide)]
  exact W5_arg5 m ρ c

theorem W7_arg7 (c : Dev nD) : W7 m ρ c (Proc.devRef .tc main_arg7) = A7 m c := by
  show StableHlo.after hostOps2 (W6 m ρ c) (Proc.devRef .tc main_arg7) = _
  dsimp only [hostOps2]
  after_results
  rw [W6_of_ne m ρ c main_arg7 (by decide)]
  exact W5_arg7 m ρ c

/-! ## At the return: the embedding as the last region left it, the readout laid out by horizon -/

theorem W9_v62_0_of (c : Dev nD) : W9 m ρ c (Proc.devRef .tc main_v62_0) = W8 m ρ c (Proc.devRef .tc main_v62_0) := by
  show StableHlo.after hostOps3 (W8 m ρ c) (Proc.devRef .tc main_v62_0) = _
  dsimp only [hostOps3]
  after_results

theorem W9_v63_of (c : Dev nD) : W9 m ρ c (Proc.devRef .tc main_v63)
    = shapeCast S100000x12x32 (W8 m ρ c (Proc.devRef .tc main_v62_1)) Facts₀.shapeCasts_S100000x384_S100000x12x32 := by
  show StableHlo.after hostOps3 (W8 m ρ c) (Proc.devRef .tc main_v63) = _
  dsimp only [hostOps3]
  after_results
  rfl

end Stretches

/-! # The regions, at the extended reals -/

section Regions

variable (m : (ℓ : Loc nD τ sig) → Buf (Elt Ideal) ℓ) (ρ : Dev nD → PrngReg)

/-- The first region's output: the node features times the first weights. -/
theorem W4_v32 (c : Dev nD) : W4 m ρ c (Proc.devRef .tc main_v32) = prod (R := 100000) (K := 64) (N := 64) (A0 m c) (A3 m c) :=
  (W4_arr m ρ c 2).trans ((region0_out (V3 m ρ) c).trans (by
    rw [show V3 m ρ c main_arg0 = A0 m c from W3_arg0 m ρ c, show V3 m ρ c main_arg3 = A3 m c from W3_arg3 m ρ c]))

/-- The first layer's aggregated features at the second region's entry. -/
theorem W5_v45 (c : Dev nD) : W5 m ρ c (Proc.devRef .tc main_v45) = feat1 (A0 m c) (A1 m c) (A2 m c) (A3 m c) := by
  rw [W5_v45_of m ρ c, W4_v32 m ρ c]
  unfold feat1 Cert.Chain.aggOf
  rfl

/-- The second region's output: the positive part of the first layer's features times the second weights. -/
theorem W6_v46 (c : Dev nD) : W6 m ρ c (Proc.devRef .tc main_v46)
    = Cert.Spec.reluLin (a := 100000) (k := 64) (n := 64) (feat1 (A0 m c) (A1 m c) (A2 m c) (A3 m c)) (A4 m c) :=
  (W6_arr m ρ c 2).trans ((region1_out (V5 m ρ) c).trans (by
    rw [show V5 m ρ c main_v45 = feat1 (A0 m c) (A1 m c) (A2 m c) (A3 m c) from W5_v45 m ρ c, show V5 m ρ c main_arg4 = A4 m c from W5_arg4 m ρ c]))

/-- The second layer's aggregated features at the third region's entry. -/
theorem W7_v59 (c : Dev nD) : W7 m ρ c (Proc.devRef .tc main_v59) = feat2 (A0 m c) (A1 m c) (A2 m c) (A3 m c) (A4 m c) := by
  rw [W7_v59_of m ρ c, W6_v46 m ρ c]
  unfold feat2 Cert.Chain.aggOf
  rfl

/-- The third region's first output: the node embedding. -/
theorem W8_v62_0 (c : Dev nD) : W8 m ρ c (Proc.devRef .tc main_v62_0) = hOut (A0 m c) (A1 m c) (A2 m c) (A3 m c) (A4 m c) :=
  (W8_arr m ρ c 5).trans ((region2_h (V7 m ρ) c).trans (by
    rw [show V7 m ρ c main_v59 = feat2 (A0 m c) (A1 m c) (A2 m c) (A3 m c) (A4 m c) from W7_v59 m ρ c]; rfl))

/-- The third region's second output: the readout before it is laid out by horizon. -/
theorem W8_v62_1 (c : Dev nD) : W8 m ρ c (Proc.devRef .tc main_v62_1) = rFlat (A0 m c) (A1 m c) (A2 m c) (A3 m c) (A4 m c) (A5 m c) (A6 m c) (A7 m c) (A8 m c) :=
  (W8_arr m ρ c 6).trans ((region2_r (V7 m ρ) c).trans (by
    rw [show V7 m ρ c main_v59 = feat2 (A0 m c) (A1 m c) (A2 m c) (A3 m c) (A4 m c) from W7_v59 m ρ c, show V7 m ρ c main_arg5 = A5 m c from W7_arg5 m ρ c,
      show V7 m ρ c main_v60 = shapeCast S1x64 (A6 m c) Facts₀.shapeCasts_S64_S1x64 from W7_v60 m ρ c,
      show V7 m ρ c main_arg7 = A7 m c from W7_arg7 m ρ c,
      show V7 m ρ c main_v61 = shapeCast S1x384 (A8 m c) Facts₀.shapeCasts_S384_S1x384 from W7_v61 m ρ c]; rfl))

/-- The returned embedding. -/
theorem W9_v62_0 (c : Dev nD) : W9 m ρ c (Proc.devRef .tc main_v62_0) = hOut (A0 m c) (A1 m c) (A2 m c) (A3 m c) (A4 m c) :=
  (W9_v62_0_of m ρ c).trans (W8_v62_0 m ρ c)

/-- The returned readout. -/
theorem W9_v63 (c : Dev nD) : W9 m ρ c (Proc.devRef .tc main_v63) = rOut (A0 m c) (A1 m c) (A2 m c) (A3 m c) (A4 m c) (A5 m c) (A6 m c) (A7 m c) (A8 m c) := by
  rw [W9_v63_of m ρ c, W8_v62_1 m ρ c]
  rfl

end Regions

end Cert.KernelIdeal.HostVal

end
-- ==== Proof.RefBridge.lean ====
/-
  The reference program's two results are the network's `rOut` and `hOut` of its arguments.

  The reference applies, stage by stage: a product with the first weights; one round of message passing;
  the positive part and a product with the second weights; a second round of message passing (it computes
  the degrees and the normalised weights a second time, from the same arguments, so with the same value);
  the positive part, which is the returned embedding; and the readout's two dense layers with their biases,
  laid out by horizon. Its message passing is the same chain of operations the kernel program prints (equal
  by unfolding the stage names), a general dot product with the plain dimension numbers is the product, the
  positive part is the maximum with a broadcast zero, and a bias spread to one row and then over all rows
  adds `b q` to the entry `(p, q)` just as the bias recast as one row does.
-/
import proofs.«143289_j25632364822536_1_alg».proof.Proof.Gen.ReferenceIdeal.Read
import proofs.«143289_j25632364822536_1_alg».proof.Proof.Net

set_option maxRecDepth 16384

noncomputable section

namespace Cert.ReferenceIdeal.Bridge

open Cert.ReferenceIdeal Cert.ReferenceIdeal.Read Idealize.ShloMosaic Idealize.ShloMosaic.TcCoe Idealize.SL.Sem
open Idealize.ShloMosaic.ValueIdx Idealize.ShloMosaic.RowBlockProduct Idealize.ShloMosaic.PlainDot

variable (x0 : (⟨S100000x64, .f32⟩ : BufTy).Contents (Elt Ideal)) (x1 : (⟨S2x1600000, .i32⟩ : BufTy).Contents (Elt Ideal))
  (x2 : (⟨S1600000, .f32⟩ : BufTy).Contents (Elt Ideal)) (x3 x4 x5 : (⟨S64x64, .f32⟩ : BufTy).Contents (Elt Ideal))
  (x6 : (⟨S64, .f32⟩ : BufTy).Contents (Elt Ideal)) (x7 : (⟨S64x384, .f32⟩ : BufTy).Contents (Elt Ideal))
  (x8 : (⟨S384, .f32⟩ : BufTy).Contents (Elt Ideal))

/-! ## The message passing is the shared chain -/

/-- The first round: the stage is the shared chain applied to the first product. -/
theorem agg1_eq : val_main_v45 (F := Ideal) x0 x1 x2 x3 = Cert.Chain.aggOf (val_main_v9 (F := Ideal) x0 x3) x1 x2 := rfl

/-- The second round, with the normalised weights computed a second time: the same chain applied to the second
    product. -/
theorem agg2_eq : val_main_v83 (F := Ideal) x0 x1 x2 x3 x4 = Cert.Chain.aggOf (val_main_v47 (F := Ideal) x0 x1 x2 x3 x4) x1 x2 := rfl

/-! ## The positive part and the biases, in the reference's spelling -/

/-- The maximum with a broadcast zero is the positive part (the three sites print the same operations). -/
theorem relu_site1 (y : (⟨S100000x64, .f32⟩ : BufTy).Contents (Elt Ideal)) :
    maximumf (F := Ideal) (φ := .f32) y (val_main_call1_v0 (F := Ideal)) = Cert.Spec.relu (a := 100000) (b := 64) y := rfl
theorem relu_site3 (y : (⟨S100000x64, .f32⟩ : BufTy).Contents (Elt Ideal)) :
    maximumf (F := Ideal) (φ := .f32) y (val_main_call3_v0 (F := Ideal)) = Cert.Spec.relu (a := 100000) (b := 64) y := rfl
theorem relu_site4 (y : (⟨S100000x64, .f32⟩ : BufTy).Contents (Elt Ideal)) :
    maximumf (F := Ideal) (φ := .f32) y (val_main_call4_v0 (F := Ideal)) = Cert.Spec.relu (a := 100000) (b := 64) y := rfl

/-- The first bias, spread to one row and then over all rows, added to `y`: the one-row form. -/
theorem bias1 (y : (⟨S100000x64, .f32⟩ : BufTy).Contents (Elt Ideal)) :
    addf (F := Ideal) (φ := .f32) y (val_main_v87 (F := Ideal) x6)
      = Cert.Spec.addRow (a := 100000) (b := 64) y (shapeCast Cert.KernelIdeal.S1x64 x6 Cert.KernelIdeal.Facts₀.shapeCasts_S64_S1x64) := by
  funext i
  obtain ⟨p, q, rfl⟩ : ∃ (p : Fin 100000) (q : Fin 64), i = ix2 p q := ⟨i 0, i 1, eq_ix2 i⟩
  rw [Cert.Net.addRow_cast_apply]
  show y (ix2 p q) + val_main_v87 (F := Ideal) x6 (ix2 p q) = _
  rw [val_main_v87_apply, val_main_v86_apply]
  exact congrArg (fun t => y (ix2 p q) + x6 t) (funext fun a => Fin.ext (by match a with | ⟨0, _⟩ => rfl))

/-- The second bias, likewise. -/
theorem bias2 (y : (⟨S100000x384, .f32⟩ : BufTy).Contents (Elt Ideal)) :
    addf (F := Ideal) (φ := .f32) y (val_main_v92 (F := Ideal) x8)
      = Cert.Spec.addRow (a := 100000) (b := 384) y (shapeCast Cert.KernelIdeal.S1x384 x8 Cert.KernelIdeal.Facts₀.shapeCasts_S384_S1x384) := by
  funext i
  obtain ⟨p, q, rfl⟩ : ∃ (p : Fin 100000) (q : Fin 384), i = ix2 p q := ⟨i 0, i 1, eq_ix2 i⟩
  rw [Cert.Net.addRow_cast_apply]
  show y (ix2 p q) + val_main_v92 (F := Ideal) x8 (ix2 p q) = _
  rw [val_main_v92_apply, val_main_v91_apply]
  exact congrArg (fun t => y (ix2 p q) + x8 t) (funext fun a => Fin.ext (by match a with | ⟨0, _⟩ => rfl))

/-! ## The stages, in order -/

theorem v9_eq : val_main_v9 (F := Ideal) x0 x3 = prod (R := 100000) (K := 64) (N := 64) x0 x3 := by
  unfold val_main_v9
  exact dotGeneral_eq_prod ⟨rfl, rfl, rfl, rfl, rfl, rfl⟩ none x0 x3

theorem v45_eq : val_main_v45 (F := Ideal) x0 x1 x2 x3 = Cert.Net.feat1 x0 x1 x2 x3 := by
  rw [agg1_eq, v9_eq]; rfl

theorem v46_eq : val_main_v46 (F := Ideal) x0 x1 x2 x3 = Cert.Spec.relu (a := 100000) (b := 64) (Cert.Net.feat1 x0 x1 x2 x3) := by
  unfold val_main_v46
  rw [v45_eq]
  exact relu_site1 _

theorem v47_eq : val_main_v47 (F := Ideal) x0 x1 x2 x3 x4
    = Cert.Spec.reluLin (a := 100000) (k := 64) (n := 64) (Cert.Net.feat1 x0 x1 x2 x3) x4 := by
  unfold val_main_v47
  rw [v46_eq]
  exact dotGeneral_eq_prod ⟨rfl, rfl, rfl, rfl, rfl, rfl⟩ none _ x4

theorem v83_eq : val_main_v83 (F := Ideal) x0 x1 x2 x3 x4 = Cert.Net.feat2 x0 x1 x2 x3 x4 := by
  rw [agg2_eq, v47_eq]; rfl

/-- The returned embedding. -/
theorem h_eq : val_main_v84 (F := Ideal) x0 x1 x2 x3 x4 = Cert.Net.hOut x0 x1 x2 x3 x4 := by
  unfold val_main_v84
  rw [v83_eq]
  exact relu_site3 _

theorem v85_eq : val_main_v85 (F := Ideal) x0 x1 x2 x3 x4 x5
    = prod (R := 100000) (K := 64) (N := 64) (Cert.Net.hOut x0 x1 x2 x3 x4) x5 := by
  unfold val_main_v85
  rw [h_eq]
  exact dotGeneral_eq_prod ⟨rfl, rfl, rfl, rfl, rfl, rfl⟩ none _ x5

theorem v88_eq : val_main_v88 (F := Ideal) x0 x1 x2 x3 x4 x5 x6
    = Cert.Spec.addRow (a := 100000) (b := 64) (prod (R := 100000) (K := 64) (N := 64) (Cert.Net.hOut x0 x1 x2 x3 x4) x5)
        (shapeCast Cert.KernelIdeal.S1x64 x6 Cert.KernelIdeal.Facts₀.shapeCasts_S64_S1x64) := by
  unfold val_main_v88
  rw [v85_eq]
  exact bias1 x6 _

theorem v89_eq : val_main_v89 (F := Ideal) x0 x1 x2 x3 x4 x5 x6
    = Cert.Spec.relu (a := 100000) (b := 64) (Cert.Spec.addRow (a := 100000) (b := 64)
        (prod (R := 100000) (K := 64) (N := 64) (Cert.Net.hOut x0 x1 x2 x3 x4) x5)
        (shapeCast Cert.KernelIdeal.S1x64 x6 Cert.KernelIdeal.Facts₀.shapeCasts_S64_S1x64)) := by
  unfold val_main_v89
  rw [v88_eq]
  exact relu_site4 _

theorem v93_eq : val_main_v93 (F := Ideal) x0 x1 x2 x3 x4 x5 x6 x7 x8 = Cert.Net.rFlat x0 x1 x2 x3 x4 x5 x6 x7 x8 := by
  unfold val_main_v93 val_main_v90
  rw [v89_eq, dotGeneral_eq_prod (R := 100000) (K := 64) (N := 384) ⟨rfl, rfl, rfl, rfl, rfl, rfl⟩ none _ x7]
  exact bias2 x8 _

/-- The returned readout. -/
theorem r_eq : val_main_v94 (F := Ideal) x0 x1 x2 x3 x4 x5 x6 x7 x8 = Cert.Net.rOut x0 x1 x2 x3 x4 x5 x6 x7 x8 := by
  unfold val_main_v94
  rw [v93_eq]
  rfl

end Cert.ReferenceIdeal.Bridge

end
-- ==== Proof.lean ====
/-
  A two-layer graph convolution with a two-layer readout: the tiled kernel program against the whole-array
  reference, equal over the extended reals.

  Both programs compute, from the node features x, the edge list and the edge weights,
    feat1 = agg (x · W1),  feat2 = agg (relu feat1 · W2),  h = relu feat2,  r = relu (h · A1 + b1) · A2 + b2,
  where agg is one round of message passing with symmetrically normalised weights (self loops added) and r is
  returned as [n, 12, 32]. The kernel program computes the three dense steps in row blocks (ten blocks of 10000
  nodes, ten again, then fifty blocks of 2000) and leaves the message passing to array operations between them;
  the reference computes everything on whole arrays. A dense step acts on one row at a time, so its value on a
  block of rows is the same rows of its value on the whole array, and the blocks tile the rows: each region's
  output array is the whole-array step of its inputs. The message passing is the same chain of operations on
  both sides and is never opened. No sum is regrouped and no product distributed, so nothing needs an entry to
  be finite: the precondition is not used by the value claim.

  The frames of the two kernel programs are the generated ones; the reference's is its generated run with the
  results dropped. The kernel program's run with both results named is the generated launch called again with
  the result buffers read beside the arguments; its boundary contents are read stretch by stretch and region by
  region, and the reference's stages are read against the same functions.
-/
import proofs.«143289_j25632364822536_1_alg».proof.Defs
import proofs.«143289_j25632364822536_1_alg».proof.Proof.Gen.Kernel
import proofs.«143289_j25632364822536_1_alg».proof.Proof.Gen.Kernel.Frame
import proofs.«143289_j25632364822536_1_alg».proof.Proof.Gen.KernelIdeal
import proofs.«143289_j25632364822536_1_alg».proof.Proof.Gen.KernelIdeal.Frame
import proofs.«143289_j25632364822536_1_alg».proof.Proof.Gen.ReferenceIdeal
import proofs.«143289_j25632364822536_1_alg».proof.Proof.Gen.Pre_finite_inputs
import proofs.«143289_j25632364822536_1_alg».proof.Proof.Gen.ReferenceIdeal.Run
import proofs.«143289_j25632364822536_1_alg».proof.Proof.Gen.ReferenceIdeal.Read
import proofs.«143289_j25632364822536_1_alg».proof.Proof.KernelRun
import proofs.«143289_j25632364822536_1_alg».proof.Proof.KernelHost
import proofs.«143289_j25632364822536_1_alg».proof.Proof.RefBridge
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments unchanged: its generated run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the nine arguments both programs end with the readout at `rOut` and the
    embedding at `hOut` of those arguments. -/
theorem algebraic : Cert.algebraic_KernelIdeal_ReferenceIdeal := by
  intro m ρ m' ρ' _ hagree
  refine ⟨fun c => Cert.Net.rOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Net.hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.HostVal.W9_v63 m ρ c),
        (h c).2.1.trans (Cert.KernelIdeal.HostVal.W9_v62_0 m ρ c), (h c).2.2⟩)
      (Cert.KernelIdeal.Gen.run_results (F := Ideal) m ρ)
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨?_, ?_, (h c).2.2⟩
    · refine (h c).1.trans ((Cert.ReferenceIdeal.Read.val_main_v94_eq m' c).trans ((Cert.ReferenceIdeal.Bridge.r_eq _ _ _ _ _ _ _ _ _).trans ?_))
      rw [e0, e1, e2, e3, e4, e5, e6, e7, e8]
    · refine (h c).2.1.trans ((Cert.ReferenceIdeal.Read.val_main_v84_eq m' c).trans ((Cert.ReferenceIdeal.Bridge.h_eq _ _ _ _ _).trans ?_))
      rw [e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
